-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1028 : Shape := ⟨2, ![1024, 1028]⟩
abbrev S1028x128 : Shape := ⟨2, ![1028, 128]⟩
abbrev S128 : Shape := ⟨1, ![128]⟩
abbrev S_ : Shape := ⟨0, ![]⟩

class Facts : Prop where
  bcast_S_S1024x1028 : S_.BroadcastsInDim S1024x1028 (![] : Fin 0 → Fin S1024x1028.rank)
  reducesTo_S1024x1028_S_d0_1 : S1024x1028.ReducesTo [0, 1] S_
  h_S_ : 0 < S_.numel
  bcast_S_S1028x128 : S_.BroadcastsInDim S1028x128 (![] : Fin 0 → Fin S1028x128.rank)
  reducesTo_S1028x128_S_d0_1 : S1028x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1024x1028 .f32) (main_arg1 : FVec F S1028x128 .f32) (main_arg2 : FVec F S1028x128 .f32) (main_arg3 : FVec F S128 .f32) (main_arg4 : FVec F S128 .f32) : IVec S_ 1 :=
  let main_v0 : FVec F S1024x1028 .f32 := Host.absf main_arg0
  let main_cst : FVec F S_ .f32 := constant S_ .f32 0x7F800000#32
  let main_v1 : FVec F S1024x1028 .f32 := broadcastInDim S1024x1028 ![] bcast_S_S1024x1028 main_cst
  let main_v2 : IVec S1024x1028 1 := cmpf .olt main_v0 main_v1
  let main_c : IVec S_ 1 := constantI S_ 1 1#1
  let main_v3 : IVec S_ 1 := (fun x v => Host.reduce IntOp.andi x v reducesTo_S1024x1028_S_d0_1 h_S_) main_v2 main_c
  let main_v4 : FVec F S1028x128 .f32 := Host.absf main_arg1
  let main_cst_0 : FVec F S_ .f32 := constant S_ .f32 0x7F800000#32
  let main_v5 : FVec F S1028x128 .f32 := broadcastInDim S1028x128 ![] bcast_S_S1028x128 main_cst_0
  let main_v6 : IVec S1028x128 1 := cmpf .olt main_v4 main_v5
  let main_c_1 : IVec S_ 1 := constantI S_ 1 1#1
  let main_v7 : IVec S_ 1 := (fun x v => Host.reduce IntOp.andi x v reducesTo_S1028x128_S_d0_1 h_S_) main_v6 main_c_1
  let main_v8 : IVec S_ 1 := andi main_v3 main_v7
  let main_v9 : FVec F S1028x128 .f32 := Host.absf main_arg2
  let main_cst_2 : FVec F S_ .f32 := constant S_ .f32 0x7F800000#32
  let main_v10 : FVec F S1028x128 .f32 := broadcastInDim S1028x128 ![] bcast_S_S1028x128 main_cst_2
  let main_v11 : IVec S1028x128 1 := cmpf .olt main_v9 main_v10
  let main_c_3 : IVec S_ 1 := constantI S_ 1 1#1
  let main_v12 : IVec S_ 1 := (fun x v => Host.reduce IntOp.andi x v reducesTo_S1028x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1024x1028 : Shape := ⟨2, ![1024, 1028]⟩
abbrev S1028x128 : Shape := ⟨2, ![1028, 128]⟩
abbrev S128 : Shape := ⟨1, ![128]⟩
abbrev S1024x1028x128 : Shape := ⟨3, ![1024, 1028, 128]⟩
abbrev S16x1028 : Shape := ⟨2, ![16, 1028]⟩
abbrev S16x1028x128 : Shape := ⟨3, ![16, 1028, 128]⟩
abbrev S16x1028x1 : Shape := ⟨3, ![16, 1028, 1]⟩
abbrev S1x1028x128 : Shape := ⟨3, ![1, 1028, 128]⟩
abbrev S1x1x128 : Shape := ⟨3, ![1, 1, 128]⟩

abbrev nBuf : Space → Nat
  | .hbm => 6
  | .vmem => 8
  | .smem => 0
  | _ => 0

abbrev bufTy : (tb : Table) → Fin (tcTables nBuf tb) → BufTy
  | .hbm, ⟨0, _⟩ => ⟨S1024x1028, .f32⟩
  | .hbm, ⟨1, _⟩ => ⟨S1028x128, .f32⟩
  | .hbm, ⟨2, _⟩ => ⟨S1028x128, .f32⟩
  | .hbm, ⟨3, _⟩ => ⟨S128, .f32⟩
  | .hbm, ⟨4, _⟩ => ⟨S128, .f32⟩
  | .hbm, ⟨5, _⟩ => ⟨S1024x1028x128, .f32⟩
  | .local _ .vmem, ⟨0, _⟩ => ⟨S16x1028, .f32⟩
  | .local _ .vmem, ⟨1, _⟩ => ⟨S16x1028, .f32⟩
  | .local _ .vmem, ⟨2, _⟩ => ⟨S1028x128, .f32⟩
  | .local _ .vmem, ⟨3, _⟩ => ⟨S1028x128, .f32⟩
  | .local _ .vmem, ⟨4, _⟩ => ⟨S128, .f32⟩
  | .local _ .vmem, ⟨5, _⟩ => ⟨S128, .f32⟩
  | .local _ .vmem, ⟨6, _⟩ => ⟨S16x1028x128, .f32⟩
  | .local _ .vmem, ⟨7, _⟩ => ⟨S16x1028x128, .f32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1028x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1028x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1028x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S16x1028_S16x1028_0_0 : ∀ a, (![0, 0] : Fin 2 → Nat) a + S16x1028.size a ≤ S16x1028.size a
  h_S16x1028 : 0 < S16x1028.numel
  inb_S1028x128_S1028x128_0_0 : ∀ a, (![0, 0] : Fin 2 → Nat) a + S1028x128.size a ≤ S1028x128.size a
  h_S1028x128 : 0 < S1028x128.numel
  inb_S128_S128_0 : ∀ a, (![0] : Fin 1 → Nat) a + S128.size a ≤ S128.size a
  h_S128 : 0 < S128.numel
  shapeCasts_S16x1028_S16x1028x1 : S16x1028.ShapeCasts S16x1028x1
  shapeCasts_S1028x128_S1x1028x128 : S1028x128.ShapeCasts S1x1028x128
  broadcasts_S16x1028x1_S16x1028x128 : S16x1028x1.Broadcasts S16x1028x128
  broadcasts_S1x1028x128_S16x1028x128 : S1x1028x128.Broadcasts S16x1028x128
  reduces_S16x1028x128_S16x1028 : S16x1028x128.Reduces [2] S16x1028
  shapeCasts_S128_S1x1x128 : S128.ShapeCasts S1x1x128
  broadcasts_S1x1x128_S16x1028x128 : S1x1x128.Broadcasts S16x1028x128
  inb_S16x1028x128_S16x1028x128_0_0_0 : ∀ a, (![0, 0, 0] : Fin 3 → Nat) a + S16x1028x128.size a ≤ S16x1028x128.size a
  h_S16x1028x128 : 0 < S16x1028x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1028.size a ≤ S1024x1028.size a
  hwx0_0 : ∀ i : grid0.Coords, EltTy.bits .f32 = 32 ∨ (Rect.block (s := S1024x1028) S16x1028.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1028x128.size a ≤ S1028x128.size a
  hwx0_1 : ∀ i : grid0.Coords, EltTy.bits .f32 = 32 ∨ (Rect.block (s := S1028x128) S1028x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1028x128.size a ≤ S1028x128.size a
  hwx0_2 : ∀ i : grid0.Coords, EltTy.bits .f32 = 32 ∨ (Rect.block (s := S1028x128) S1028x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1028x128.size a ≤ S1024x1028x128.size a
  hwx0_5 : ∀ i : grid0.Coords, EltTy.bits .f32 = 32 ∨ (Rect.block (s := S1024x1028x128) S16x1028x128.size (cc0_transform_5 i) (hinb0_5 i)).WholeWords (EltTy.packing .f32)

variable [Facts₀]

abbrev win0_0 : Pipeline.Window sig grid0 :=
  Pipeline.Window.ofSpec (Memref.whole main_arg0) S16x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1028x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1028x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x1028x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1028 : Shape := ⟨2, ![1024, 1028]⟩
abbrev S1028x128 : Shape := ⟨2, ![1028, 128]⟩
abbrev S128 : Shape := ⟨1, ![128]⟩
abbrev S1024x1028x1 : Shape := ⟨3, ![1024, 1028, 1]⟩
abbrev S1x1028x128 : Shape := ⟨3, ![1, 1028, 128]⟩
abbrev S1024x1028x128 : Shape := ⟨3, ![1024, 1028, 128]⟩
abbrev S_ : Shape := ⟨0, ![]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S1024x1028, .f32⟩
  | .hbm, ⟨1, _⟩ => ⟨S1028x128, .f32⟩
  | .hbm, ⟨2, _⟩ => ⟨S1028x128, .f32⟩
  | .hbm, ⟨3, _⟩ => ⟨S128, .f32⟩
  | .hbm, ⟨4, _⟩ => ⟨S128, .f32⟩
  | .hbm, ⟨5, _⟩ => ⟨S1024x1028x1, .f32⟩
  | .hbm, ⟨6, _⟩ => ⟨S1x1028x128, .f32⟩
  | .hbm, ⟨7, _⟩ => ⟨S1024x1028x128, .f32⟩
  | .hbm, ⟨8, _⟩ => ⟨S1024x1028x128, .f32⟩
  | .hbm, ⟨9, _⟩ => ⟨S1024x1028x128, .f32⟩
  | .hbm, ⟨10, _⟩ => ⟨S1x1028x128, .f32⟩
  | .hbm, ⟨11, _⟩ => ⟨S1024x1028x128, .f32⟩
  | .hbm, ⟨12, _⟩ => ⟨S1024x1028x128, .f32⟩
  | .hbm, ⟨13, _⟩ => ⟨S_, .f32⟩
  | .hbm, ⟨14, _⟩ => ⟨S1024x1028, .f32⟩
  | .hbm, ⟨15, _⟩ => ⟨S1024x1028x1, .f32⟩
  | .hbm, ⟨16, _⟩ => ⟨S_, .f32⟩
  | .hbm, ⟨17, _⟩ => ⟨S1024x1028x1, .f32⟩
  | .hbm, ⟨18, _⟩ => ⟨S1024x1028x1, .f32⟩
  | .hbm, ⟨19, _⟩ => ⟨S1024x1028x128, .f32⟩
  | .hbm, ⟨20, _⟩ => ⟨S1024x1028x128, .f32⟩
  | .hbm, ⟨21, _⟩ => ⟨S1024x1028x128, .f32⟩
  | .hbm, ⟨22, _⟩ => ⟨S_, .f32⟩
  | .hbm, ⟨23, _⟩ => ⟨S1024x1028, .f32⟩
  | .hbm, ⟨24, _⟩ => ⟨S1024x1028x1, .f32⟩
  | .hbm, ⟨25, _⟩ => ⟨S_, .f32⟩
  | .hbm, ⟨26, _⟩ => ⟨S1024x1028x1, .f32⟩
  | .hbm, ⟨27, _⟩ => ⟨S1024x1028x1, .f32⟩
  | .hbm, ⟨28, _⟩ => ⟨S1024x1028x128, .f32⟩
  | .hbm, ⟨29, _⟩ => ⟨S1024x1028x128, .f32⟩
  | .hbm, ⟨30, _⟩ => ⟨S_, .f32⟩
  | .hbm, ⟨31, _⟩ => ⟨S1024x1028x1, .f32⟩
  | .hbm, ⟨32, _⟩ => ⟨S1024x1028x1, .f32⟩
  | .hbm, ⟨33, _⟩ => ⟨S1024x1028x1, .f32⟩
  | .hbm, ⟨34, _⟩ => ⟨S1024x1028x128, .f32⟩
  | .hbm, ⟨35, _⟩ => ⟨S1024x1028x128, .f32⟩
  | .hbm, ⟨36, _⟩ => ⟨S1x1x128, .f32⟩
  | .hbm, ⟨37, _⟩ => ⟨S1024x1028x128, .f32⟩
  | .hbm, ⟨38, _⟩ => ⟨S1024x1028x128, .f32⟩
  | .hbm, ⟨39, _⟩ => ⟨S1x1x128, .f32⟩
  | .hbm, ⟨40, _⟩ => ⟨S1024x1028x128, .f32⟩
  | .hbm, ⟨41, _⟩ => ⟨S1024x1028x128, .f32⟩
  | _, _ => ⟨S1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S1024x1028_S1024x1028x1_0_1 : S1024x1028.BroadcastsInDim S1024x1028x1 (![0, 1] : Fin 2 → Fin S1024x1028x1.rank)
  bcast_S1028x128_S1x1028x128_1_2 : S1028x128.BroadcastsInDim S1x1028x128 (![1, 2] : Fin 2 → Fin S1x1028x128.rank)
  bcast_S1024x1028x1_S1024x1028x128_0_1_2 : S1024x1028x1.BroadcastsInDim S1024x1028x128 (![0, 1, 2] : Fin 3 → Fin S1024x1028x128.rank)
  bcast_S1x1028x128_S1024x1028x128_0_1_2 : S1x1028x128.BroadcastsInDim S1024x1028x128 (![0, 1, 2] : Fin 3 → Fin S1024x1028x128.rank)
  reducesTo_S1024x1028x128_S1024x1028_d2 : S1024x1028x128.ReducesTo [2] S1024x1028
  h_S_ : 0 < S_.numel
  bcast_S_S1024x1028x1 : S_.BroadcastsInDim S1024x1028x1 (![] : Fin 0 → Fin S1024x1028x1.rank)
  bcast_S128_S1x1x128_2 : S128.BroadcastsInDim S1x1x128 (![2] : Fin 1 → Fin S1x1x128.rank)
  bcast_S1x1x128_S1024x1028x128_0_1_2 : S1x1x128.BroadcastsInDim S1024x1028x128 (![0, 1, 2] : Fin 3 → Fin S1024x1028x128.rank)

variable [Facts₀]

class Facts : Prop extends Facts₀ where

variable [Facts]
-- ==== Proof.Spec.lean ====
/-
  Layer normalisation of per-feature affine embeddings, on the extended reals.

  A batch row `r` and a feature `f` give a 128-lane embedding `e k = x r f · W f k + B f k` (a "Linear(1, 128)" per
  feature, i.e. one scalar multiply-add per lane — no contraction). The result at lane `d` is
      ((e d − μ) · rsqrt (σ² + ε)) · γ d + β d,
  with `μ = (Σ_k e k) / 128` the mean over the lanes and `σ² = (Σ_k (e k − μ)²) / 128` the biased variance.
  Everything is a formula in the exact operations of the extended reals: sums over `Fin 128`, the total division
  `Ideal.div` and the total reciprocal square root `Ideal.rsqrt`. The divisor `128.0` and `ε` enter as the values of
  their f32 words; both programs carry the same words, so they are never evaluated.
  The number of batch rows `R` is a parameter: the same formula describes a block of 16 rows and the whole array of 1024.
-/
import Idealize.ShloMosaic.PureOps.Ideal
import Idealize.ShloMosaic.Lib.ValueIdx

noncomputable section

namespace Cert.LayerNorm

open Idealize.ShloMosaic Idealize.ShloMosaic.ValueIdx

/-- The lane count `128.0`, as the extended real its f32 word denotes. -/
def lanes : EReal := Ideal.ofBits .f32 0x43000000#32

/-- `ε` (the f32 nearest to `1e-5`), as the extended real its f32 word denotes. -/
def eps : EReal := Ideal.ofBits .f32 0x3727C5AC#32

/-- The mean of a 128-lane vector. -/
def mean (e : Fin 128 → EReal) : EReal := Ideal.div (∑ k : Fin 128, e k) lanes

/-- Its biased variance: the mean of the squared deviations. -/
def var (e : Fin 128 → EReal) : EReal := Ideal.div (∑ k : Fin 128, (e k - mean e) * (e k - mean e)) lanes

/-- The normalised vector at lane `d`, scaled by `g` and shifted by `b`. -/
def normed (e : Fin 128 → EReal) (g b : EReal) (d : Fin 128) : EReal :=
  (e d - mean e) * Ideal.rsqrt (var e + eps) * g + b

/-- The normalised vector depends only on the vector's values, the scale and the shift. -/
theorem normed_congr {e e' : Fin 128 → EReal} {g g' b b' : EReal} (he : ∀ k, e k = e' k) (hg : g = g') (hb : b = b')
    (d : Fin 128) : normed e g b d = normed e' g' b' d := by
  rw [funext he, hg, hb]

/-- The 128-lane embedding of feature `f` of batch row `r`: `x r f · W f k + B f k` at lane `k`. -/
def embed {R : Nat} (x : (⟨2, ![R, 1028]⟩ : Shape).Idx → EReal) (W B : (⟨2, ![1028, 128]⟩ : Shape).Idx → EReal)
    (r : Fin R) (f : Fin 1028) : Fin 128 → EReal :=
  fun k => x (ix2 r f) * W (ix2 f k) + B (ix2 f k)

/-- The whole result, index by index: the normalised embedding of (row, feature) at the lane. -/
def G {R : Nat} (x : (⟨2, ![R, 1028]⟩ : Shape).Idx → EReal) (W B : (⟨2, ![1028, 128]⟩ : Shape).Idx → EReal)
    (γ β : (⟨1, ![128]⟩ : Shape).Idx → EReal) : (⟨3, ![R, 1028, 128]⟩ : Shape).Idx → EReal :=
  fun i => normed (embed x W B (i 0) (i 1)) (γ (ix1 (i 2))) (β (ix1 (i 2))) (i 2)

/-- `G` at explicit coordinates. -/
theorem G_ix3 {R : Nat} (x : (⟨2, ![R, 1028]⟩ : Shape).Idx → EReal) (W B : (⟨2, ![1028, 128]⟩ : Shape).Idx → EReal)
    (γ β : (⟨1, ![128]⟩ : Shape).Idx → EReal) (r : Fin R) (f : Fin 1028) (d : Fin 128) :
    G x W B γ β (ix3 r f d) = normed (embed x W B r f) (γ (ix1 d)) (β (ix1 d)) d := rfl

end Cert.LayerNorm

end
-- ==== Proof.KernelBlock.lean ====
/-
  What the kernel body computes on one block of 16 batch rows, index by index.

  The body's stored value is a tree of vector operations on the five loaded blocks `P0 : [16,1028]` (rows of `x`),
  `P1, P2 : [1028,128]` (`W` and `B`, whole) and `P3, P4 : [128]` (`γ` and `β`). Read at (row `r`, feature `f`, lane `d`):
  * the embedding block is `P0 r f · P1 f k + P2 f k` at lane `k` — each operand is first given unit axes and spread over
    the missing ones, which only re-indexes it;
  * a lane sum (`multi_reduction <add>` over the last axis) is the `Fin 128`-indexed sum of the summand at (r, f, ·);
    kept as a [16,1028,1] column, divided by `128.0` and spread back over the lanes it is the mean, the same for every lane;
  * so the centred block is `e k − μ`, the second lane sum is that of its squares, and the rest is pointwise.
  Hence the stored block is the layer-normalised embedding `LayerNorm.G` of the five blocks (`payload_apply`).
-/
import proofs.«114929_j79302276153442_1_alg».proof.Proof.Gen.KernelIdeal.Skeleton
import proofs.«114929_j79302276153442_1_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.LayerNorm

/-! ## Re-indexing: unit axes and spreading -/

section Layout

variable {α : Type}

/-- A [16,1028] value given a trailing unit axis, read at (r, f, 0): the value at (r, f). -/
theorem column_of_rows (v : S16x1028.Idx → α) (r : Fin 16) (f : Fin 1028) :
    shapeCast S16x1028x1 v shapeCasts_S16x1028_S16x1028x1 (ix3 r f (0 : Fin 1)) = v (ix2 r f) :=
  shapeCast_apply _ _ _ _ (by
    rw [Shape.rowMajor_val_two, Shape.rowMajor_val_three]
    show r.val * 1028 + f.val = (r.val * 1028 + f.val) * 1 + 0
    omega)

/-- A [16,1028,1] column spread over the 128 lanes, read at (r, f, k): the column at (r, f, 0). -/
theorem spread_column (u : S16x1028x1.Idx → α) (r : Fin 16) (f : Fin 1028) (k : Fin 128) :
    broadcastTo S16x1028x128 u broadcasts_S16x1028x1_S16x1028x128 (ix3 r f k) = u (ix3 r f (0 : Fin 1)) :=
  broadcastTo_apply _ _ _ _ (fun a => match a with
    | ⟨0, _⟩ => by show r.val = if (16 : Nat) = 1 then 0 else r.val; rw [if_neg (by decide)]
    | ⟨1, _⟩ => by show f.val = if (1028 : Nat) = 1 then 0 else f.val; rw [if_neg (by decide)]
    | ⟨2, _⟩ => by show 0 = if (1 : Nat) = 1 then 0 else k.val; rw [if_pos rfl])

/-- A [1028,128] table given a leading unit axis and spread over the 16 rows, read at (r, f, k): the table at (f, k). -/
theorem spread_table (w : S1028x128.Idx → α) (r : Fin 16) (f : Fin 1028) (k : Fin 128) :
    broadcastTo S16x1028x128 (shapeCast S1x1028x128 w shapeCasts_S1028x128_S1x1028x128) broadcasts_S1x1028x128_S16x1028x128 (ix3 r f k)
      = w (ix2 f k) :=
  (broadcastTo_apply _ _ (ix3 r f k) (ix3 (0 : Fin 1) f k) (fun a => match a with
    | ⟨0, _⟩ => by show 0 = if (1 : Nat) = 1 then 0 else r.val; rw [if_pos rfl]
    | ⟨1, _⟩ => by show f.val = if (1028 : Nat) = 1 then 0 else f.val; rw [if_neg (by decide)]
    | ⟨2, _⟩ => by show k.val = if (128 : Nat) = 1 then 0 else k.val; rw [if_neg (by decide)])).trans
  (shapeCast_apply _ _ _ _ (by
    rw [Shape.rowMajor_val_two, Shape.rowMajor_val_three]
    show f.val * 128 + k.val = (0 * 1028 + f.val) * 128 + k.val
    omega))

/-- A [128] vector given two leading unit axes and spread over rows and features, read at (r, f, k): the vector at k. -/
theorem spread_lanes (g : S128.Idx → α) (r : Fin 16) (f : Fin 1028) (k : Fin 128) :
    broadcastTo S16x1028x128 (shapeCast S1x1x128 g shapeCasts_S128_S1x1x128) broadcasts_S1x1x128_S16x1028x128 (ix3 r f k)
      = g (ix1 k) :=
  (broadcastTo_apply _ _ (ix3 r f k) (ix3 (0 : Fin 1) (0 : Fin 1) k) (fun a => match a with
    | ⟨0, _⟩ => by show 0 = if (1 : Nat) = 1 then 0 else r.val; rw [if_pos rfl]
    | ⟨1, _⟩ => by show 0 = if (1 : Nat) = 1 then 0 else f.val; rw [if_pos rfl]
    | ⟨2, _⟩ => by show k.val = if (128 : Nat) = 1 then 0 else k.val; rw [if_neg (by decide)])).trans
  (shapeCast_apply _ _ _ _ (by
    rw [Shape.rowMajor_val_one, Shape.rowMajor_val_three]
    show k.val = (0 * 1 + 0) * 128 + k.val
    omega))

end Layout

/-! ## The body's value, in named steps (at any float instance) -/

section Steps

variable {F : FTy → Type} [FloatOps F]

/-- The embedding block `x · W + B`, every operand spread to [16,1028,128]. -/
def embBlock (P0 : Vec F S16x1028 .f32) (P1 P2 : Vec F S1028x128 .f32) : FVec F S16x1028x128 .f32 :=
  addf (mulf (broadcastTo S16x1028x128 (shapeCast S16x1028x1 P0 shapeCasts_S16x1028_S16x1028x1) broadcasts_S16x1028x1_S16x1028x128)
      (broadcastTo S16x1028x128 (shapeCast S1x1028x128 P1 shapeCasts_S1028x128_S1x1028x128) broadcasts_S1x1028x128_S16x1028x128))
    (broadcastTo S16x1028x128 (shapeCast S1x1028x128 P2 shapeCasts_S1028x128_S1x1028x128) broadcasts_S1x1028x128_S16x1028x128)

/-- The lane mean as a [16,1028,1] column: the lane sum divided by `128.0`. -/
def meanCol (e : FVec F S16x1028x128 .f32) : FVec F S16x1028x1 .f32 :=
  divf (shapeCast S16x1028x1 (multiReduction .add [2] S16x1028 e 0x00000000#32 reduces_S16x1028x128_S16x1028 (.inl rfl) rfl)
      shapeCasts_S16x1028_S16x1028x1)
    (broadcast S16x1028x1 (Scalar.ofBits .f32 0x43000000#32))

/-- The block minus its lane mean. -/
def centred (e : FVec F S16x1028x128 .f32) : FVec F S16x1028x128 .f32 :=
  subf e (broadcastTo S16x1028x128 (meanCol e) broadcasts_S16x1028x1_S16x1028x128)

/-- The reciprocal standard deviation as a column: `rsqrt` of the mean squared deviation plus `ε`. -/
def invStd (e : FVec F S16x1028x128 .f32) : FVec F S16x1028x1 .f32 :=
  rsqrt (addf (meanCol (mulf (centred e) (centred e))) (broadcast S16x1028x1 (Scalar.ofBits .f32 0x3727C5AC#32)))

/-- The normalised block, scaled by `γ` and shifted by `β` along the lanes. -/
def normBlock (e : FVec F S16x1028x128 .f32) (P3 P4 : Vec F S128 .f32) : FVec F S16x1028x128 .f32 :=
  addf (mulf (mulf (centred e) (broadcastTo S16x1028x128 (invStd e) broadcasts_S16x1028x1_S16x1028x128))
      (broadcastTo S16x1028x128 (shapeCast S1x1x128 P3 shapeCasts_S128_S1x1x128) broadcasts_S1x1x128_S16x1028x128))
    (broadcastTo S16x1028x128 (shapeCast S1x1x128 P4 shapeCasts_S128_S1x1x128) broadcasts_S1x1x128_S16x1028x128)

/-- The body's stored value is these steps composed. -/
theorem payload_eq_steps (P0 : Vec F S16x1028 .f32) (P1 P2 : Vec F S1028x128 .f32) (P3 P4 : Vec F S128 .f32) :
    k0_pay1 P0 P1 P2 P3 P4 = normBlock (embBlock P0 P1 P2) P3 P4 := rfl

end Steps

/-! ## The steps read at an index, on the extended reals -/

/-- The embedding block at (r, f, k). -/
theorem embBlock_apply (P0 : Vec Ideal S16x1028 .f32) (P1 P2 : Vec Ideal S1028x128 .f32) (r : Fin 16) (f : Fin 1028) (k : Fin 128) :
    embBlock P0 P1 P2 (ix3 r f k) = embed P0 P1 P2 r f k :=
  congrArg₂ (· + ·) (congrArg₂ (· * ·) ((spread_column _ r f k).trans (column_of_rows P0 r f)) (spread_table P1 r f k))
    (spread_table P2 r f k)

/-- A lane sum at (r, f): the sum over the 128 lanes. -/
theorem lane_sum (e : FVec Ideal S16x1028x128 .f32) (r : Fin 16) (f : Fin 1028) :
    multiReduction .add [2] S16x1028 e 0x00000000#32 reduces_S16x1028x128_S16x1028 (.inl rfl) rfl (ix2 r f)
      = ∑ k : Fin 128, e (ix3 r f k) := by
  refine (Ideal.multiReduction_add_single e 0x00000000#32 reduces_S16x1028x128_S16x1028 (.inl rfl) rfl (ix2 r f)).trans ?_
  refine Finset.sum_congr rfl fun k _ => congrArg e ?_
  exact funext fun a => Fin.ext (by match a with | ⟨0, _⟩ => rfl | ⟨1, _⟩ => rfl | ⟨2, _⟩ => rfl)

/-- The mean column at (r, f, 0): the mean of the block's lanes at (r, f). -/
theorem meanCol_apply (e : FVec Ideal S16x1028x128 .f32) (r : Fin 16) (f : Fin 1028) :
    meanCol e (ix3 r f (0 : Fin 1)) = mean fun k => e (ix3 r f k) :=
  congrArg (Ideal.div · lanes) ((column_of_rows _ r f).trans (lane_sum e r f))

/-- The centred block at (r, f, k). -/
theorem centred_apply (e : FVec Ideal S16x1028x128 .f32) (r : Fin 16) (f : Fin 1028) (k : Fin 128) :
    centred e (ix3 r f k) = e (ix3 r f k) - mean fun k => e (ix3 r f k) :=
  congrArg (e (ix3 r f k) - ·) ((spread_column _ r f k).trans (meanCol_apply e r f))

/-- The reciprocal standard deviation at (r, f, 0). -/
theorem invStd_apply (e : FVec Ideal S16x1028x128 .f32) (r : Fin 16) (f : Fin 1028) :
    invStd e (ix3 r f (0 : Fin 1)) = Ideal.rsqrt (var (fun k => e (ix3 r f k)) + eps) := by
  refine congrArg (fun z => Ideal.rsqrt (z + eps)) ((meanCol_apply _ r f).trans ?_)
  refine congrArg (Ideal.div · lanes) (Finset.sum_congr rfl fun k _ => ?_)
  exact congrArg₂ (· * ·) (centred_apply e r f k) (centred_apply e r f k)

/-- The normalised block at (r, f, d). -/
theorem normBlock_apply (e : FVec Ideal S16x1028x128 .f32) (P3 P4 : Vec Ideal S128 .f32) (r : Fin 16) (f : Fin 1028) (d : Fin 128) :
    normBlock e P3 P4 (ix3 r f d) = normed (fun k => e (ix3 r f k)) (P3 (ix1 d)) (P4 (ix1 d)) d :=
  congrArg₂ (· + ·)
    (congrArg₂ (· * ·)
      (congrArg₂ (· * ·) (centred_apply e r f d) ((spread_column _ r f d).trans (invStd_apply e r f)))
      (spread_lanes P3 r f d))
    (spread_lanes P4 r f d)

/-- THE BLOCK: the body's stored value at (r, f, d) is the layer-normalised embedding of the loaded blocks. -/
theorem payload_apply (P0 : Vec Ideal S16x1028 .f32) (P1 P2 : Vec Ideal S1028x128 .f32) (P3 P4 : Vec Ideal S128 .f32)
    (r : Fin 16) (f : Fin 1028) (d : Fin 128) :
    k0_pay1 (F := Ideal) P0 P1 P2 P3 P4 (ix3 r f d) = G P0 P1 P2 P3 P4 (ix3 r f d) := by
  rw [G_ix3]
  refine (congrFun (payload_eq_steps P0 P1 P2 P3 P4) (ix3 r f d)).trans ((normBlock_apply _ P3 P4 r f d).trans ?_)
  exact congrArg (fun e => normed e (P3 (ix1 d)) (P4 (ix1 d)) d) (funext fun k => embBlock_apply P0 P1 P2 r f k)

end Cert.KernelIdeal.Block

end
-- ==== Proof.KernelValue.lean ====
/-
  The kernel's result array, whole: the layer-normalised embedding `LayerNorm.G` of the argument arrays.

  The grid has 64 points; point `t` works on batch rows `16·t … 16·t + 15`. Its row block of `x` is block `t` of the array,
  the tables `W`, `B` and the vectors `γ`, `β` are staged whole at every point, and the output block is block `t` of the
  result along the batch axis, whole along features and lanes. So what point `t` writes back — the body's value on its
  blocks, which is `G` of the blocks — is block `t` of `G` of the whole arrays: row `r` of the block is row `16·t + r` of the
  array, and feature and lane coordinates are unchanged. The 64 blocks tile the batch axis (row `i` lies in block `i / 16`),
  so the array after the run is `G` everywhere.
-/
import proofs.«114929_j79302276153442_1_alg».proof.Proof.Gen.KernelIdeal.Value
import proofs.«114929_j79302276153442_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx Cert.LayerNorm
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl
theorem origin1 : (![0] : Fin 1 → Nat) = fun _ => 0 := funext fun a => by fin_cases a <;> rfl

/-- The index maps over the 64 grid points: the row block of `x` moves with the output block along the batch axis; every
    other block index is `0`; the output's batch block index is at most 63. -/
theorem block_indices : ∀ t : Fin cfg0.N,
    win0_0.index t (0 : Fin 2) = win0_5.index t (0 : Fin 3) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 3) ≤ 63 ∧ win0_5.index t (1 : Fin 3) = 0 ∧ win0_5.index t (2 : Fin 3) = 0 :=
  (by decide +kernel : ∀ t : Fin grid0.N, _)

/-- Every batch block of the output is some point's. -/
theorem every_block : ∀ q : Fin 64, ∃ t : Fin cfg0.N, win0_5.index t = ![q.val, 0, 0] :=
  (by decide +kernel : ∀ q : Fin 64, ∃ t : Fin grid0.N, win0_5.index t = ![q.val, 0, 0])

/-! ## The input blocks, read where the output block's index says -/

/-- Row `r`, feature `f` of point `t`'s block of `x` is row `16·t + r`, feature `f` of the array. -/
theorem rows_read (c : Dev nD) (t : Fin cfg0.N) (r : Fin 16) (f : Fin 1028) (h : win0_5.index t (0 : Fin 3) * 16 + r.val < 1024) :
    iblk m c 0 t (ix2 r f) = V m c main_arg0 (ix2 (⟨win0_5.index t (0 : Fin 3) * 16 + r.val, h⟩ : Fin 1024) f) := by
  obtain ⟨e0, e1, -⟩ := block_indices t
  show V m c main_arg0 (((cfg0.win 0).blk t).view.emb (ix2 r f)) = _
  refine congrArg (V m c main_arg0) (funext fun a => Fin.ext ?_)
  match a with
  | ⟨0, _⟩ => show win0_0.index t (0 : Fin 2) * 16 + 1 * r.val = win0_5.index t (0 : Fin 3) * 16 + r.val; omega
  | ⟨1, _⟩ => show win0_0.index t (1 : Fin 2) * 1028 + 1 * f.val = f.val; omega

/-- The block of `W` at any point is `W`. -/
theorem weights_read (c : Dev nD) (t : Fin cfg0.N) (f : Fin 1028) (k : Fin 128) :
    iblk m c 1 t (ix2 f k) = V m c main_arg1 (ix2 f k) := by
  obtain ⟨-, -, e2, e3, -⟩ := block_indices t
  show V m c main_arg1 (((cfg0.win 1).blk t).view.emb (ix2 f k)) = _
  refine congrArg (V m c main_arg1) (funext fun a => Fin.ext ?_)
  match a with
  | ⟨0, _⟩ => show win0_1.index t (0 : Fin 2) * 1028 + 1 * f.val = f.val; omega
  | ⟨1, _⟩ => show win0_1.index t (1 : Fin 2) * 128 + 1 * k.val = k.val; omega

/-- The block of `B` at any point is `B`. -/
theorem bias_read (c : Dev nD) (t : Fin cfg0.N) (f : Fin 1028) (k : Fin 128) :
    iblk m c 2 t (ix2 f k) = V m c main_arg2 (ix2 f k) := by
  obtain ⟨-, -, -, -, e4, e5, -⟩ := block_indices t
  show V m c main_arg2 (((cfg0.win 2).blk t).view.emb (ix2 f k)) = _
  refine congrArg (V m c main_arg2) (funext fun a => Fin.ext ?_)
  match a with
  | ⟨0, _⟩ => show win0_2.index t (0 : Fin 2) * 1028 + 1 * f.val = f.val; omega
  | ⟨1, _⟩ => show win0_2.index t (1 : Fin 2) * 128 + 1 * k.val = k.val; omega

/-- The block of `γ` at any point is `γ`. -/
theorem scale_read (c : Dev nD) (t : Fin cfg0.N) (d : Fin 128) :
    iblk m c 3 t (ix1 d) = V m c main_arg3 (ix1 d) := by
  obtain ⟨-, -, -, -, -, -, e6, -⟩ := block_indices t
  show V m c main_arg3 (((cfg0.win 3).blk t).view.emb (ix1 d)) = _
  refine congrArg (V m c main_arg3) (funext fun a => Fin.ext ?_)
  match a with
  | ⟨0, _⟩ => show win0_3.index t (0 : Fin 1) * 128 + 1 * d.val = d.val; omega

/-- The block of `β` at any point is `β`. -/
theorem shift_read (c : Dev nD) (t : Fin cfg0.N) (d : Fin 128) :
    iblk m c 4 t (ix1 d) = V m c main_arg4 (ix1 d) := by
  obtain ⟨-, -, -, -, -, -, -, e7, -⟩ := block_indices t
  show V m c main_arg4 (((cfg0.win 4).blk t).view.emb (ix1 d)) = _
  refine congrArg (V m c main_arg4) (funext fun a => Fin.ext ?_)
  match a with
  | ⟨0, _⟩ => show win0_4.index t (0 : Fin 1) * 128 + 1 * d.val = d.val; omega

/-! ## What a point writes back -/

/-- WHAT POINT `t` WRITES BACK is block `t` of `G` of the argument arrays as the region finds them. -/
theorem flushed_eq (c : Dev nD) (t : Fin cfg0.N) :
    (dats m 0 c).flushed 5 t = ((cfg0.win 5).blk t).view.read (Elt Ideal)
      (G (R := 1024) (V m c main_arg0) (V m c main_arg1) (V m c main_arg2) (V m c main_arg3) (V m c main_arg4)) := by
  rw [Value.flushed5]
  unfold out0_5
  rw [View.canon_unit_zero origin3]
  simp only [View.ld_unit_zero (S := S16x1028) origin2, View.ld_unit_zero (S := S1028x128) origin2, View.ld_unit_zero (S := S128) origin1]
  obtain ⟨-, -, -, -, -, -, -, -, e8, e9, e10⟩ := block_indices t
  funext j
  obtain ⟨r, f, d, rfl⟩ : ∃ (r : Fin 16) (f : Fin 1028) (d : Fin 128), j = ix3 r f d := ⟨j 0, j 1, j 2, eq_ix3 j⟩
  have hrow : win0_5.index t (0 : Fin 3) * 16 + r.val < 1024 := by have := r.isLt; omega
  show k0_pay1 (F := Ideal) (iblk m c 0 t) (iblk m c 1 t) (iblk m c 2 t) (iblk m c 3 t) (iblk m c 4 t) (ix3 r f d)
    = G (R := 1024) (V m c main_arg0) (V m c main_arg1) (V m c main_arg2) (V m c main_arg3) (V m c main_arg4)
        (((cfg0.win 5).blk t).view.emb (ix3 r f d))
  have hE : ((cfg0.win 5).blk t).view.emb (ix3 r f d) = ix3 (⟨win0_5.index t (0 : Fin 3) * 16 + r.val, hrow⟩ : Fin 1024) f d := by
    funext a; apply Fin.ext
    match a with
    | ⟨0, _⟩ => show win0_5.index t (0 : Fin 3) * 16 + 1 * r.val = win0_5.index t (0 : Fin 3) * 16 + r.val; omega
    | ⟨1, _⟩ => show win0_5.index t (1 : Fin 3) * 1028 + 1 * f.val = f.val; omega
    | ⟨2, _⟩ => show win0_5.index t (2 : Fin 3) * 128 + 1 * d.val = d.val; omega
  refine (Block.payload_apply (iblk m c 0 t) (iblk m c 1 t) (iblk m c 2 t) (iblk m c 3 t) (iblk m c 4 t) r f d).trans ?_
  rw [hE, G_ix3, G_ix3]
  exact normed_congr
    (fun k => congrArg₂ (fun a b : EReal => a + b)
      (congrArg₂ (fun a b : EReal => a * b) (rows_read m c t r f hrow) (weights_read m c t f k)) (bias_read m c t f k))
    (scale_read m c t d) (shift_read m c t d) d

/-! ## The blocks tile the array -/

/-- An index of the result array is in point `t`'s block iff each coordinate is in the block's range on its axis. -/
theorem mem_block (t : Fin cfg0.N) (i : S1024x1028x128.Idx) :
    i ∈ ((cfg0.win 5).blk t).view.set ↔ ∀ a : Fin 3, win0_5.index t a * S16x1028x128.size a ≤ (i a).val ∧ (i a).val < win0_5.index t a * S16x1028x128.size a + S16x1028x128.size a := by
  show i ∈ ((View.whole main_v0).slice (win0_5.rect t)).set ↔ _
  rw [View.set_slice_whole, Rect.mem_set_unit]
  exact Iff.rfl

/-- Every index of the result array is in some point's block: batch row `i` lies in block `i / 16`. -/
theorem covered (i : S1024x1028x128.Idx) :
    ∃ t : Fin cfg0.N, (cfg0.win 5).flush t = true ∧ i ∈ ((cfg0.win 5).blk t).view.set := by
  have hi0 : (i 0).val < 1024 := (i 0).isLt
  have hi1 : (i 1).val < 1028 := (i 1).isLt
  have hi2 : (i 2).val < 128 := (i 2).isLt
  obtain ⟨t, ht⟩ := every_block ⟨(i 0).val / 16, by omega⟩
  have q0 : win0_5.index t (0 : Fin 3) = (i 0).val / 16 := congrFun ht 0
  have q1 : win0_5.index t (1 : Fin 3) = 0 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 1028 ≤ (i 1).val ∧ (i 1).val < win0_5.index t (1 : Fin 3) * 1028 + 1028; omega
  | ⟨2, _⟩ => show win0_5.index t (2 : Fin 3) * 128 ≤ (i 2).val ∧ (i 2).val < win0_5.index t (2 : Fin 3) * 128 + 128; omega

/-- THE ARRAY after the run: `G` of the argument arrays as launched. -/
theorem final (c : Dev nD) : (dats m 0 c).arrAt 5 cfg0.N
    = G (R := 1024) (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) covered

/-! ## The run, read -/

/-- Every weakly fair execution of the kernel program ends with the result array at `G` of the arguments and the arguments
    unchanged. -/
theorem run : θ_run defs (onTc (τ := τ) (main (F := Ideal))) ⟨m, fun _ => 0, ρ⟩ fun r => ∀ c : Dev nD,
      r.2.mem ((c : Thread nD τ).loc main_v0)
        = G (R := 1024) (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  What the reference computes, index by index: the layer-normalised embedding `LayerNorm.G` of its five arguments.

  The reference is a straight line of whole-array operations; its stages are read at an index one after the other.
  A `broadcast_in_dim` only re-indexes; the embedding stage is `x r f · W f k + B f k`; a `reduce add` over the lanes is
  the initial value `0` plus the `Fin 128`-indexed sum; the mean is that sum divided by `128.0`, kept as a unit-lane column
  and spread back, so the centred stage is `e k − μ` (the reference forms it twice: once for the squares, once for the
  result); the variance is the mean of its squares; the rest is pointwise.
-/
import proofs.«114929_j79302276153442_1_alg».proof.Proof.Gen.ReferenceIdeal.Read
import proofs.«114929_j79302276153442_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.LayerNorm

variable (x : S1024x1028.Idx → EReal) (W B : S1028x128.Idx → EReal) (γ β : S128.Idx → EReal)

/-- The embedding stage at (r, f, k). -/
theorem emb_apply (r : Fin 1024) (f : Fin 1028) (k : Fin 128) :
    val_main_v7 (F := Ideal) x W B (ix3 r f k) = embed x W B r f k := by
  rw [val_main_v7_apply, val_main_v4_apply, val_main_v2_apply, val_main_v0_apply, val_main_v3_apply, val_main_v1_apply,
    val_main_v6_apply, val_main_v5_apply]
  exact congrArg₂ (· + ·)
    (congrArg₂ (· * ·)
      (congrArg x (funext fun a => Fin.ext (by match a with | ⟨0, _⟩ => rfl | ⟨1, _⟩ => rfl)))
      (congrArg W (funext fun a => Fin.ext (by match a with | ⟨0, _⟩ => rfl | ⟨1, _⟩ => rfl))))
    (congrArg B (funext fun a => Fin.ext (by match a with | ⟨0, _⟩ => rfl | ⟨1, _⟩ => rfl)))

/-- The first lane sum at (r, f): the sum of the embedding's lanes (its initial value is `0`). -/
theorem sum_apply (r : Fin 1024) (f : Fin 1028) :
    val_main_v8 (F := Ideal) x W B (ix2 r f) = ∑ k : Fin 128, embed x W B r f k := by
  rw [val_main_v8_apply]
  show Ideal.ofBits .f32 0x00000000#32 + _ = _
  rw [Ideal.ofBits_zero_f32, zero_add]
  refine Finset.sum_congr rfl fun k _ => ?_
  exact (congrArg (val_main_v7 (F := Ideal) x W B)
    (funext fun a => Fin.ext (by match a with | ⟨0, _⟩ => rfl | ⟨1, _⟩ => rfl | ⟨2, _⟩ => rfl))).trans (emb_apply x W B r f k)

/-- The mean column at (r, f, 0). -/
theorem mean_apply (r : Fin 1024) (f : Fin 1028) (z : Fin 1) :
    val_main_v11 (F := Ideal) x W B (ix3 r f z) = mean (embed x W B r f) := by
  rw [val_main_v11_apply, val_main_v9_apply, val_main_v10_apply]
  exact congrArg (Ideal.div · lanes) ((congrArg (val_main_v8 (F := Ideal) x W B)
    (funext fun a => Fin.ext (by match a with | ⟨0, _⟩ => rfl | ⟨1, _⟩ => rfl))).trans (sum_apply x W B r f))

/-- The centred stage at (r, f, k), as formed for the squares. -/
theorem centred_apply (r : Fin 1024) (f : Fin 1028) (k : Fin 128) :
    val_main_v13 (F := Ideal) x W B (ix3 r f k) = embed x W B r f k - mean (embed x W B r f) := by
  rw [val_main_v13_apply, val_main_v12_apply]
  exact congrArg₂ (· - ·) (emb_apply x W B r f k) ((congrArg (val_main_v11 (F := Ideal) x W B)
    (funext fun a => Fin.ext (by match a with | ⟨0, _⟩ => rfl | ⟨1, _⟩ => rfl | ⟨2, _⟩ => rfl))).trans (mean_apply x W B r f 0))

/-- The centred stage at (r, f, k), as formed again for the result. -/
theorem centred_apply' (r : Fin 1024) (f : Fin 1028) (k : Fin 128) :
    val_main_v20 (F := Ideal) x W B (ix3 r f k) = embed x W B r f k - mean (embed x W B r f) := by
  rw [val_main_v20_apply, val_main_v19_apply]
  exact congrArg₂ (· - ·) (emb_apply x W B r f k) ((congrArg (val_main_v11 (F := Ideal) x W B)
    (funext fun a => Fin.ext (by match a with | ⟨0, _⟩ => rfl | ⟨1, _⟩ => rfl | ⟨2, _⟩ => rfl))).trans (mean_apply x W B r f 0))

/-- The second lane sum at (r, f): the sum of the squared deviations. -/
theorem sqsum_apply (r : Fin 1024) (f : Fin 1028) :
    val_main_v15 (F := Ideal) x W B (ix2 r f)
      = ∑ k : Fin 128, (embed x W B r f k - mean (embed x W B r f)) * (embed x W B r f k - mean (embed x W B r f)) := by
  rw [val_main_v15_apply]
  show Ideal.ofBits .f32 0x00000000#32 + _ = _
  rw [Ideal.ofBits_zero_f32, zero_add]
  refine Finset.sum_congr rfl fun k _ => ?_
  refine (congrArg (val_main_v14 (F := Ideal) x W B)
    (funext fun a => Fin.ext (by match a with | ⟨0, _⟩ => rfl | ⟨1, _⟩ => rfl | ⟨2, _⟩ => rfl) : idx_main_v15 (ix2 r f) k = ix3 r f k)).trans ?_
  rw [val_main_v14_apply]
  exact congrArg₂ (· * ·) (centred_apply x W B r f k) (centred_apply x W B r f k)

/-- The variance column at (r, f, 0). -/
theorem var_apply (r : Fin 1024) (f : Fin 1028) (z : Fin 1) :
    val_main_v18 (F := Ideal) x W B (ix3 r f z) = var (embed x W B r f) := by
  rw [val_main_v18_apply, val_main_v16_apply, val_main_v17_apply]
  exact congrArg (Ideal.div · lanes) ((congrArg (val_main_v15 (F := Ideal) x W B)
    (funext fun a => Fin.ext (by match a with | ⟨0, _⟩ => rfl | ⟨1, _⟩ => rfl))).trans (sqsum_apply x W B r f))

/-- The reciprocal standard deviation column at (r, f, 0). -/
theorem invStd_apply (r : Fin 1024) (f : Fin 1028) (z : Fin 1) :
    val_main_v23 (F := Ideal) x W B (ix3 r f z) = Ideal.rsqrt (var (embed x W B r f) + eps) := by
  rw [val_main_v23_apply, val_main_v22_apply, val_main_v21_apply]
  exact congrArg (fun v => Ideal.rsqrt (v + eps)) (var_apply x W B r f z)

/-- The scale `γ` spread over rows and features, at (r, f, d). -/
theorem scale_apply (r : Fin 1024) (f : Fin 1028) (d : Fin 128) :
    val_main_v27 (F := Ideal) γ (ix3 r f d) = γ (ix1 d) := by
  rw [val_main_v27_apply, val_main_v26_apply]
  exact congrArg γ (funext fun a => Fin.ext (by match a with | ⟨0, _⟩ => rfl))

/-- The shift `β` spread over rows and features, at (r, f, d). -/
theorem shift_apply (r : Fin 1024) (f : Fin 1028) (d : Fin 128) :
    val_main_v30 (F := Ideal) β (ix3 r f d) = β (ix1 d) := by
  rw [val_main_v30_apply, val_main_v29_apply]
  exact congrArg β (funext fun a => Fin.ext (by match a with | ⟨0, _⟩ => rfl))

/-- THE REFERENCE: its result is the layer-normalised embedding of its arguments. -/
theorem result_eq : val_main_v31 (F := Ideal) x W B γ β = G x W B γ β := by
  funext i
  obtain ⟨r, f, d, rfl⟩ : ∃ (r : Fin 1024) (f : Fin 1028) (d : Fin 128), i = ix3 r f d := ⟨i 0, i 1, i 2, eq_ix3 i⟩
  rw [G_ix3, val_main_v31_apply, val_main_v28_apply, val_main_v25_apply, val_main_v24_apply]
  exact congrArg₂ (· + ·)
    (congrArg₂ (· * ·)
      (congrArg₂ (· * ·) (centred_apply' x W B r f d)
        ((congrArg (val_main_v23 (F := Ideal) x W B)
          (funext fun a => Fin.ext (by match a with | ⟨0, _⟩ => rfl | ⟨1, _⟩ => rfl | ⟨2, _⟩ => rfl) :
            idx_main_v24 (ix3 r f d) = ix3 r f (0 : Fin 1))).trans (invStd_apply x W B r f 0)))
      (scale_apply γ r f d))
    (shift_apply β r f d)

end Cert.ReferenceIdeal.RefValue

end
-- ==== Proof.lean ====
/-
  Layer normalisation of per-feature affine embeddings: the kernel against its jnp reference, over the extended reals.

  Both programs compute, for batch row `r`, feature `f` and lane `d`,
      ((e d − μ) · rsqrt (σ² + ε)) · γ d + β d,   e k = x r f · W f k + B f k,   μ = (Σ_k e k) / 128,   σ² = (Σ_k (e k − μ)²) / 128
  (`LayerNorm.G`, Proof/Spec.lean), with the same operations in the same order and the same two f32 words for `128.0` and `ε`.
  The kernel tiles the batch axis in 64 blocks of 16 rows and forms the two lane sums with `multi_reduction <add>`; the reference
  works on whole arrays and forms them with `reduce add` from the initial value `0`. On the extended reals both sums are the
  `Fin 128`-indexed sum, the kernel's and the host's division are one total division and their reciprocal square roots one
  function, so no algebraic law beyond `0 + s = s` is needed, and the inputs' finiteness is never used.

  * Proof/KernelBlock.lean: the body's stored value on one block is `G` of the loaded blocks.
  * Proof/KernelValue.lean: the 64 written blocks are the blocks of `G` of the whole arrays and tile the result array.
  * Proof/RefValue.lean: the reference's result, stage by stage, is `G` of its arguments.
  The three frames are the generated frame runs (the reference's: its generated run with the result dropped); the
  idealisation rewrote no operation, so `preserves` is `True`.
-/
import proofs.«114929_j79302276153442_1_alg».proof.Defs
import proofs.«114929_j79302276153442_1_alg».proof.Proof.Gen.Kernel
import proofs.«114929_j79302276153442_1_alg».proof.Proof.Gen.Kernel.Skeleton
import proofs.«114929_j79302276153442_1_alg».proof.Proof.Gen.Kernel.Launch
import proofs.«114929_j79302276153442_1_alg».proof.Proof.Gen.Kernel.Points
import proofs.«114929_j79302276153442_1_alg».proof.Proof.Gen.Kernel.Frame
import proofs.«114929_j79302276153442_1_alg».proof.Proof.Gen.KernelIdeal
import proofs.«114929_j79302276153442_1_alg».proof.Proof.Gen.KernelIdeal.Skeleton
import proofs.«114929_j79302276153442_1_alg».proof.Proof.Gen.KernelIdeal.Launch
import proofs.«114929_j79302276153442_1_alg».proof.Proof.Gen.KernelIdeal.Points
import proofs.«114929_j79302276153442_1_alg».proof.Proof.Gen.KernelIdeal.Frame
import proofs.«114929_j79302276153442_1_alg».proof.Proof.Gen.ReferenceIdeal
import proofs.«114929_j79302276153442_1_alg».proof.Proof.Gen.Pre_finite_inputs
import proofs.«114929_j79302276153442_1_alg».proof.Proof.Gen.KernelIdeal.Value
import proofs.«114929_j79302276153442_1_alg».proof.Proof.Gen.ReferenceIdeal.Run
import proofs.«114929_j79302276153442_1_alg».proof.Proof.Gen.ReferenceIdeal.Read
import proofs.«114929_j79302276153442_1_alg».proof.Proof.KernelValue
import proofs.«114929_j79302276153442_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `LayerNorm.G` of the arguments:
    the kernel by its blocks (`Whole.run`), the reference by its stages (`RefValue.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
